-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S256x128 : Shape := ⟨2, ![256, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S1024x128 .f32) (main_arg1 : FVec F S1024x128 .f32) (main_arg2 : FVec F S256x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S1024x128 : Shape := ⟨2, ![1024, 128]⟩
abbrev S256x128 : Shape := ⟨2, ![256, 128]⟩
abbrev S1024x1024 : Shape := ⟨2, ![1024, 1024]⟩
abbrev S256x256 : Shape := ⟨2, ![256, 256]⟩
abbrev S128x256 : Shape := ⟨2, ![128, 256]⟩

abbrev nBuf : Space → Nat
  | .hbm => 4
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S256x128, .f32⟩
  | .hbm, ⟨3, _⟩ => ⟨S1024x1024, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x256, .f32⟩
  | .local _ .vmem, ⟨6, _⟩ => ⟨S256x256, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  bitsLt_bf16_f32 : FTy.bits .bf16 < FTy.bits .f32
  natLt_1_32 : 1 < 32
  transposes_S256x256_p1_0_S256x256 : S256x256.Transposes [1, 0] S256x256
  inb_S256x256_S256x256_0_0 : ∀ a, (![0, 0] : Fin 2 → Nat) a + S256x256.size a ≤ S256x256.size a
  h_S256x256 : 0 < S256x256.numel
  dot_S256x128_S128x256_S256x256_1_0_0_1_n_n_wf : DotDims.WF S256x128 S128x256 S256x256 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S1024x128.size a
  hwx0_0 : ∀ i : grid0.Coords, EltTy.bits .f32 = 32 ∨ (Rect.block (s := S1024x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S1024x128.size a
  hwx0_1 : ∀ i : grid0.Coords, EltTy.bits .f32 = 32 ∨ (Rect.block (s := S1024x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S1024x1024.size a
  hwx0_3 : ∀ i : grid0.Coords, EltTy.bits .f32 = 32 ∨ (Rect.block (s := S1024x1024) S256x256.size (cc0_transform_3 i) (hinb0_3 i)).WholeWords (EltTy.packing .f32)

variable [Facts₀]

def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x128 : Shape := ⟨2, ![1024, 128]⟩
abbrev S256x128 : Shape := ⟨2, ![256, 128]⟩
abbrev S128x256 : Shape := ⟨2, ![128, 256]⟩
abbrev S1024x256 : Shape := ⟨2, ![1024, 256]⟩
abbrev S1024x1x256 : Shape := ⟨3, ![1024, 1, 256]⟩
abbrev S1x1024x256 : Shape := ⟨3, ![1, 1024, 256]⟩
abbrev S_ : Shape := ⟨0, ![]⟩
abbrev S1024x1024x256 : Shape := ⟨3, ![1024, 1024, 256]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S256x128, .f32⟩
  | .hbm, ⟨3, _⟩ => ⟨S128x256, .f32⟩
  | .hbm, ⟨4, _⟩ => ⟨S1024x256, .f32⟩
  | .hbm, ⟨5, _⟩ => ⟨S128x256, .f32⟩
  | .hbm, ⟨6, _⟩ => ⟨S1024x256, .f32⟩
  | .hbm, ⟨7, _⟩ => ⟨S1024x1x256, .f32⟩
  | .hbm, ⟨8, _⟩ => ⟨S1x1024x256, .f32⟩
  | .hbm, ⟨9, _⟩ => ⟨S_, .f32⟩
  | .hbm, ⟨10, _⟩ => ⟨S1024x1x256, .f32⟩
  | .hbm, ⟨11, _⟩ => ⟨S1024x1x256, .i1⟩
  | .hbm, ⟨12, _⟩ => ⟨S_, .f32⟩
  | .hbm, ⟨13, _⟩ => ⟨S1x1024x256, .f32⟩
  | .hbm, ⟨14, _⟩ => ⟨S1x1024x256, .i1⟩
  | .hbm, ⟨15, _⟩ => ⟨S1024x1024x256, .i1⟩
  | .hbm, ⟨16, _⟩ => ⟨S1024x1024x256, .i1⟩
  | .hbm, ⟨17, _⟩ => ⟨S1024x1024x256, .i1⟩
  | .hbm, ⟨18, _⟩ => ⟨S1024x1024x256, .f32⟩
  | .hbm, ⟨19, _⟩ => ⟨S1024x1024x256, .f32⟩
  | .hbm, ⟨20, _⟩ => ⟨S1024x1024x256, .f32⟩
  | .hbm, ⟨21, _⟩ => ⟨S_, .f32⟩
  | .hbm, ⟨22, _⟩ => ⟨S1024x1024, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  transposes_S256x128_S128x256_1_0 : S256x128.Transposes [1, 0] S128x256
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S_S1024x1x256 : S_.BroadcastsInDim S1024x1x256 (![] : Fin 0 → Fin S1024x1x256.rank)
  bcast_S_S1x1024x256 : S_.BroadcastsInDim S1x1024x256 (![] : Fin 0 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  dot_S1024x128_S128x256_S1024x256_1_0_0_1_n_n_wf : DotDims.WF S1024x128 S128x256 S1024x256 [1] [0] [0] [1] [] []

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

class Facts : Prop extends Facts₀ where

variable [Facts]
-- ==== Proof.Spec.lean ====
/-
  The mathematics both programs compute, stated once over the argument arrays and free of either program.

  Inputs: `a, b : [1024, 128]` and `w : [256, 128]` (extended reals).  Project each row of `a` and of `b` on the
  256 rows of `w`:  `proj x w i k = ∑ d, x[i,d] · w[k,d]`.  The result is, for a row `i` of `a` and a row `j` of `b`,

      out[i, j] = ∑ k, relu(proj a w i k) · 𝟙[proj b w j k ≤ 0].

  One program multiplies the rectified projection with the indicator of `b`'s side alone (`kterm`); the other
  multiplies the projection itself with the indicator of BOTH conditions `proj a > 0` and `proj b ≤ 0` (`rterm`).
  The two summands agree at every pair of extended reals: where the projection is positive, `relu` is the identity
  and the extra condition holds; where it is not, `relu` gives `0` on one side and the indicator is `0` on the
  other, and `0 · y = x · 0 = 0` on the extended reals with no finiteness needed.
-/
import Idealize.ShloMosaic.PureOps.Ideal
import Idealize.ShloMosaic.PureOps.Ideal.Laws
import Idealize.ShloMosaic.Lib.ValueIdx

noncomputable section

namespace Cert.MaskedRelu

open Idealize.ShloMosaic Idealize.ShloMosaic.ValueIdx

/-- The summand with the rectifier: `max x 0` times the indicator `y ≤ 0` (a one-bit compare widened to a word and
    read as a signed integer: `0` or `1`). -/
def kterm (x y : EReal) : EReal :=
  max x 0 * ((((Ideal.cmp .ole y 0).setWidth 32).toInt : ℝ) : EReal)

/-- The summand with the joint mask: `x` times the indicator of `x > 0 ∧ y ≤ 0` (the conjunction of two one-bit
    compares read as an unsigned integer: `0` or `1`). -/
def rterm (x y : EReal) : EReal :=
  x * ((((IntOp.andi (Ideal.cmp .ogt x 0) (Ideal.cmp .ole y 0)).toNat : ℝ)) : EReal)

/-- `x · 𝟙[x > 0 ∧ y ≤ 0] = relu x · 𝟙[y ≤ 0]` at every pair of extended reals. -/
theorem rterm_eq_kterm (x y : EReal) : rterm x y = kterm x y := by
  unfold rterm kterm Ideal.cmp IntOp.andi
  by_cases hx : (0 : EReal) < x
  · have h1 : max x 0 = x := max_eq_left hx.le
    by_cases hy : y ≤ 0
    · simp [hx, hy, h1]
    · simp [hx, hy, h1]
  · have h1 : max x 0 = 0 := max_eq_right (not_lt.mp hx)
    by_cases hy : y ≤ 0
    · simp [hx, hy, h1]
    · simp [hx, hy, h1]

/-- Row `i` of `x` against row `k` of `w`. -/
def proj (x : (⟨2, ![1024, 128]⟩ : Shape).Idx → EReal) (w : (⟨2, ![256, 128]⟩ : Shape).Idx → EReal)
    (i : Fin 1024) (k : Fin 256) : EReal :=
  ∑ d : Fin 128, x (ix2 i d) * w (ix2 k d)

/-- The result array: at `(i, j)` the sum over the 256 features of the rectified projection of `a`'s row `i`
    where the projection of `b`'s row `j` is not positive. -/
def G (a b : (⟨2, ![1024, 128]⟩ : Shape).Idx → EReal) (w : (⟨2, ![256, 128]⟩ : Shape).Idx → EReal) :
    (⟨2, ![1024, 1024]⟩ : Shape).Idx → EReal :=
  fun j => ∑ k : Fin 256, kterm (proj a w (j 0) k) (proj b w (j 1) k)

end Cert.MaskedRelu

end
-- ==== Proof.RefValue.lean ====
/-
  The reference program's result, read index by index, is the specification `G` of the argument arrays.

  The reference forms both projections with a host contraction against the transposed feature table, lays them out
  as `[1024, 1, 256]` and `[1, 1024, 256]`, compares each with zero, broadcasts the two one-bit masks to
  `[1024, 1024, 256]`, takes their conjunction, converts it to a float, multiplies it with the broadcast projection of
  `a` and sums the last axis.  Read at `(p, q, k)` every broadcast only drops or repeats a coordinate, so the summand is
  `rterm (proj a w p k) (proj b w q k)`, and the sum over `k` of these is `G` by the summand law `rterm_eq_kterm`.
-/
import proofs.«164270_j89567247991564_1_alg».proof.Proof.Gen.ReferenceIdeal.Read
import proofs.«164270_j89567247991564_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.MaskedRelu

/-- The contraction of `a` with the transposed table at `(p, k)`: row `p` of `a` against row `k` of `w`. -/
theorem v1_at (a : FVec Ideal S1024x128 .f32) (w : FVec Ideal S256x128 .f32) (p : Fin 1024) (k : Fin 256) :
    val_main_v1 (F := Ideal) a w (ix2 p k) = proj a w p k := by
  rw [val_main_v1_apply]
  unfold proj
  refine Finset.sum_congr rfl fun d _ => ?_
  rw [val_main_v0_apply]
  have e1 : lidx_main_v1 (ix2 p k) d = ix2 p d := funext fun a => by
    match a with
    | ⟨0, _⟩ => rfl
    | ⟨1, _⟩ => rfl
  have e2 : idx_main_v0 (ridx_main_v1 (ix2 p k) d) = ix2 k d := funext fun a => by
    match a with
    | ⟨0, _⟩ => rfl
    | ⟨1, _⟩ => rfl
  rw [e1, e2]

/-- The same for `b`. -/
theorem v3_at (b : FVec Ideal S1024x128 .f32) (w : FVec Ideal S256x128 .f32) (q : Fin 1024) (k : Fin 256) :
    val_main_v3 (F := Ideal) b w (ix2 q k) = proj b w q k := by
  rw [val_main_v3_apply]
  unfold proj
  refine Finset.sum_congr rfl fun d _ => ?_
  rw [val_main_v2_apply]
  have e1 : lidx_main_v3 (ix2 q k) d = ix2 q d := funext fun a => by
    match a with
    | ⟨0, _⟩ => rfl
    | ⟨1, _⟩ => rfl
  have e2 : idx_main_v2 (ridx_main_v3 (ix2 q k) d) = ix2 k d := funext fun a => by
    match a with
    | ⟨0, _⟩ => rfl
    | ⟨1, _⟩ => rfl
  rw [e1, e2]

/-- The masked product at `(p, q, k)`: the projection of `a`'s row `p` on feature `k` times the joint indicator. -/
theorem v15_at (a b : FVec Ideal S1024x128 .f32) (w : FVec Ideal S256x128 .f32) (p q : Fin 1024) (k : Fin 256) :
    val_main_v15 (F := Ideal) a b w (ix3 p q k) = rterm (proj a w p k) (proj b w q k) := by
  have e1 : idx_main_v4 (idx_main_v14 (ix3 p q k)) = ix2 p k := funext fun a => by
    match a with
    | ⟨0, _⟩ => rfl
    | ⟨1, _⟩ => rfl
  have e2 : idx_main_v4 (idx_main_v10 (ix3 p q k)) = ix2 p k := funext fun a => by
    match a with
    | ⟨0, _⟩ => rfl
    | ⟨1, _⟩ => rfl
  have e3 : idx_main_v5 (idx_main_v11 (ix3 p q k)) = ix2 q k := funext fun a => by
    match a with
    | ⟨0, _⟩ => rfl
    | ⟨1, _⟩ => rfl
  rw [val_main_v15_apply, val_main_v14_apply, val_main_v4_apply, e1, v1_at, val_main_v13_apply, val_main_v12_apply,
    val_main_v10_apply, val_main_v7_apply, val_main_v4_apply, e2, v1_at, val_main_v6_apply, val_main_cst_apply,
    val_main_v11_apply, val_main_v9_apply, val_main_v5_apply, e3, v3_at, val_main_v8_apply, val_main_cst_0_apply]
  unfold rterm
  simp only [Ideal.mulf_def, Ideal.cmpf_def, Ideal.ofBits_def, Ideal.ofBits_zero_f32]
  rfl

/-- The reference's result array is `G` of the argument arrays. -/
theorem ref_eq (a b : FVec Ideal S1024x128 .f32) (w : FVec Ideal S256x128 .f32) :
    val_main_v16 (F := Ideal) a b w = G a b w := by
  funext i
  obtain ⟨p, q, rfl⟩ : ∃ (p q : Fin 1024), i = ix2 p q := ⟨i 0, i 1, eq_ix2 i⟩
  rw [val_main_v16_apply, val_main_cst_1_apply]
  show _ = ∑ k : Fin 256, kterm (proj a w p k) (proj b w q k)
  simp only [Ideal.ofBits_def, Ideal.ofBits_zero_f32, zero_add]
  refine Finset.sum_congr rfl fun k _ => ?_
  have e : idx_main_v16 (ix2 p q) k = ix3 p q k := funext fun a => by
    match a with
    | ⟨0, _⟩ => rfl
    | ⟨1, _⟩ => rfl
    | ⟨2, _⟩ => rfl
  rw [e, v15_at, rterm_eq_kterm]

end Cert.ReferenceIdeal.RefValue

end
-- ==== Proof.KernelPayload.lean ====
/-
  The kernel body's one stored value, read at an index of the `[256, 256]` output block.

  The body loads a block `x0` of `a` (256 rows), a block `x1` of `b` (256 rows) and the whole table `x2 = w`.  It
  contracts `x0` and `x1` with the transposed table (two matrix products into a zero accumulator: plain sums over the
  128 columns), rectifies the first, compares the second with zero and converts the one-bit answer to a float, transposes
  that indicator and contracts once more over the 256 features.  At `(p, q)` this is

      ∑ k, relu(∑ d, x0[p,d]·x2[k,d]) · 𝟙[∑ d, x1[q,d]·x2[k,d] ≤ 0]  =  ∑ k, kterm (…) (…).

  A change of float format is the identity on the extended reals, and a transpose only swaps the two coordinates.
-/
import proofs.«164270_j89567247991564_1_alg».proof.Proof.Gen.KernelIdeal.Skeleton
import proofs.«164270_j89567247991564_1_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx Cert.MaskedRelu

/-! ## The two contractions' operand indices, axis by axis -/

theorem lhsA_0 (i : S256x256.Idx) (q : dot_S256x128_S128x256_S256x256_1_0_0_1_n_n.contr.Idx) :
    (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
theorem lhsA_1 (i : S256x256.Idx) (q : dot_S256x128_S128x256_S256x256_1_0_0_1_n_n.contr.Idx) :
    (dot_S256x128_S128x256_S256x256_1_0_0_1_n_n.lhsIdx i q 1).val = (q ⟨0, by decide⟩).val :=
  dot_S256x128_S128x256_S256x256_1_0_0_1_n_n.lhsIdx_val_of_single rfl i q
theorem rhsA_0 (i : S256x256.Idx) (q : dot_S256x128_S128x256_S256x256_1_0_0_1_n_n.contr.Idx) :
    (dot_S256x128_S128x256_S256x256_1_0_0_1_n_n.rhsIdx i q 0).val = (q ⟨0, by decide⟩).val :=
  dot_S256x128_S128x256_S256x256_1_0_0_1_n_n.rhsIdx_val_of_single rfl i q
theorem rhsA_1 (i : S256x256.Idx) (q : dot_S256x128_S128x256_S256x256_1_0_0_1_n_n.contr.Idx) :
    (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl

theorem lhsB_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhsB_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhsB_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhsB_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-! ## The matrix products as sums -/

/-- A `[256,128] × [128,256]` product into zero, at `(r, c)`: the sum over the 128 inner positions. -/
theorem projMatmul_apply (x : FVec Ideal S256x128 .f32) (y : FVec Ideal S128x256 .f32) (r c : Fin 256) :
    matmul dot_S256x128_S128x256_S256x256_1_0_0_1_n_n none x y (constant (F := Ideal) S256x256 .f32 0x00000000#32) (ix2 r c)
      = ∑ d : Fin 128, x (ix2 r d) * y (ix2 d c) := by
  simp only [matmul]
  rw [Ideal.matmul_constant_zero_apply, ← Equiv.sum_comp (ValueIdx.contrEquiv1 dot_S256x128_S128x256_S256x256_1_0_0_1_n_n 128 rfl rfl).symm]
  refine Finset.sum_congr rfl fun k _ => ?_
  have hk := ValueIdx.contrEquiv1_symm_val dot_S256x128_S128x256_S256x256_1_0_0_1_n_n 128 rfl rfl k
  have el : dot_S256x128_S128x256_S256x256_1_0_0_1_n_n.lhsIdx (ix2 r c) ((ValueIdx.contrEquiv1 dot_S256x128_S128x256_S256x256_1_0_0_1_n_n 128 rfl rfl).symm k) = ix2 r k := funext fun a => Fin.ext (by
    match a with
    | ⟨0, _⟩ => exact lhsA_0 _ _
    | ⟨1, _⟩ => exact (lhsA_1 _ _).trans hk)
  have er : dot_S256x128_S128x256_S256x256_1_0_0_1_n_n.rhsIdx (ix2 r c) ((ValueIdx.contrEquiv1 dot_S256x128_S128x256_S256x256_1_0_0_1_n_n 128 rfl rfl).symm k) = ix2 k c := funext fun a => Fin.ext (by
    match a with
    | ⟨0, _⟩ => exact (rhsA_0 _ _).trans hk
    | ⟨1, _⟩ => exact rhsA_1 _ _)
  rw [el, er]

/-- A `[256,256] × [256,256]` product into zero, at `(r, c)`: the sum over the 256 inner positions. -/
theorem featMatmul_apply (x y : FVec Ideal S256x256 .bf16) (r c : Fin 256) :
    matmul dot_S256x256_S256x256_S256x256_1_0_0_1_n_n none x y (constant (F := Ideal) S256x256 .f32 0x00000000#32) (ix2 r c)
      = ∑ k : Fin 256, x (ix2 r k) * y (ix2 k c) := by
  simp only [matmul]
  rw [Ideal.matmul_constant_zero_apply, ← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx (ix2 r c) ((ValueIdx.contrEquiv1 dot_S256x256_S256x256_S256x256_1_0_0_1_n_n 256 rfl rfl).symm k) = ix2 r k := funext fun a => Fin.ext (by
    match a with
    | ⟨0, _⟩ => exact lhsB_0 _ _
    | ⟨1, _⟩ => exact (lhsB_1 _ _).trans hk)
  have er : dot_S256x256_S256x256_S256x256_1_0_0_1_n_n.rhsIdx (ix2 r c) ((ValueIdx.contrEquiv1 dot_S256x256_S256x256_S256x256_1_0_0_1_n_n 256 rfl rfl).symm k) = ix2 k c := funext fun a => Fin.ext (by
    match a with
    | ⟨0, _⟩ => exact (rhsB_0 _ _).trans hk
    | ⟨1, _⟩ => exact rhsB_1 _ _)
  rw [el, er]

/-! ## The transposes swap the coordinates -/

theorem tableT_apply (v : FVec Ideal S256x128 .f32) (h : S256x128.Transposes [1, 0] S128x256) (d : Fin 128) (k : Fin 256) :
    transpose S128x256 [1, 0] v h (ix2 d k) = v (ix2 k d) :=
  transpose_apply [1, 0] v h (ix2 d k) (ix2 k d) (fun b => match b with
    | ⟨0, _⟩ => rfl
    | ⟨1, _⟩ => rfl)

theorem maskT_apply (v : FVec Ideal S256x256 .bf16) (h : S256x256.Transposes [1, 0] S256x256) (k q : Fin 256) :
    transpose S256x256 [1, 0] v h (ix2 k q) = v (ix2 q k) :=
  transpose_apply [1, 0] v h (ix2 k q) (ix2 q k) (fun b => match b with
    | ⟨0, _⟩ => rfl
    | ⟨1, _⟩ => rfl)

/-- A block of rows against the transposed table, at `(r, k)`: row `r` of the block against row `k` of the table. -/
theorem projT_apply (x v : FVec Ideal S256x128 .f32) (h : S256x128.Transposes [1, 0] S128x256) (r k : Fin 256) :
    matmul dot_S256x128_S128x256_S256x256_1_0_0_1_n_n none x (transpose S128x256 [1, 0] v h) (constant (F := Ideal) S256x256 .f32 0x00000000#32) (ix2 r k)
      = ∑ d : Fin 128, x (ix2 r d) * v (ix2 k d) := by
  rw [projMatmul_apply]
  refine Finset.sum_congr rfl fun d _ => ?_
  rw [tableT_apply]

/-! ## The payload at an index -/

/-- The stored value at `(p, q)` of the block, over the three loaded values. -/
theorem pay_at (x0 x1 x2 : FVec Ideal S256x128 .f32) (p q : Fin 256) :
    k0_pay1 (F := Ideal) x0 x1 x2 (ix2 p q)
      = ∑ k : Fin 256, kterm (∑ d : Fin 128, x0 (ix2 p d) * x2 (ix2 k d)) (∑ d : Fin 128, x1 (ix2 q d) * x2 (ix2 k d)) := by
  unfold k0_pay1
  dsimp only
  rw [featMatmul_apply]
  refine Finset.sum_congr rfl fun k _ => ?_
  rw [maskT_apply]
  rw [truncf_apply, truncf_apply, maximumf_apply, sitofp_apply, extui_apply, cmpf_apply, broadcast_apply, broadcast_apply,
    projT_apply, projT_apply]
  unfold kterm
  simp only [Ideal.cmpf_def, Ideal.ofBits_def, Ideal.ofBits_zero_f32]
  rfl

end Cert.KernelIdeal.Payload

end
-- ==== Proof.KernelValue.lean ====
/-
  From blocks to the array: after the kernel's run the result array is the specification `G` of the argument arrays.

  The grid is 4 × 4.  At point `t = (i, j)` the body sees rows `256 i … 256 i + 255` of `a`, rows `256 j … 256 j + 255` of
  `b` and the whole table `w`, and writes block `(i, j)` of the `[1024, 1024]` result.  Entry `(p, q)` of that block
  is `∑ k, kterm (row p of the a-block · row k of w) (row q of the b-block · row k of w)` — which is `G` at
  `(256 i + p, 256 j + q)`, because a block's row is the array's row at block index × 256 + the row inside the block.
  The sixteen blocks tile the array (the point covering `(r, s)` is `(r / 256, s / 256)`), so the array ends at `G`.
-/
import proofs.«164270_j89567247991564_1_alg».proof.Proof.Gen.KernelIdeal.Value
import proofs.«164270_j89567247991564_1_alg».proof.Proof.KernelPayload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Cert.KernelIdeal.Payload
open Idealize.ShloMosaic.ValueIdx Cert.MaskedRelu

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the sixteen points: the `a`-window follows the result's row block, the `b`-window
    the result's column block, the table's window stays at block `(0, 0)`. -/
theorem block_indices : ∀ t : Fin cfg0.N,
    win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = 0 :=
  (by decide +kernel : ∀ t : Fin grid0.N, _)

/-- Every one of the 4 × 4 result blocks is some point's. -/
theorem block_onto : ∀ (q0 q1 : Fin 4), ∃ t : Fin cfg0.N, win0_3.index t = ![q0.val, q1.val] :=
  (by decide +kernel : ∀ (q0 q1 : Fin 4), ∃ t : Fin grid0.N, win0_3.index t = ![q0.val, q1.val])

/-- The three argument arrays on core `c`. -/
abbrev argA (c : Dev nD) : FVec Ideal S1024x128 .f32 := m ((c : Thread nD τ).loc main_arg0)
abbrev argB (c : Dev nD) : FVec Ideal S1024x128 .f32 := m ((c : Thread nD τ).loc main_arg1)
abbrev argW (c : Dev nD) : FVec Ideal S256x128 .f32 := m ((c : Thread nD τ).loc main_arg2)

/-- Row `p` of the `a`-block at point `t` is row `256 · (row block) + p` of `a`. -/
theorem ablk_apply (c : Dev nD) (t : Fin cfg0.N) (p : Fin 256) (d : Fin 128) (r : Fin 1024)
    (hr : r.val = win0_3.index t (0 : Fin 2) * 256 + p.val) :
    (iblk m c 0 t : Vec Ideal S256x128 .f32) (ix2 p d) = argA m c (ix2 r d) := by
  obtain ⟨e0, e1, -⟩ := block_indices t
  unfold iblk
  rw [View.read_apply]
  show V m c main_arg0 _ = m (c.tc.loc main_arg0) _
  unfold V
  congr 1
  funext a
  apply Fin.ext
  match a with
  | ⟨0, _⟩ => show win0_0.index t (0 : Fin 2) * 256 + 1 * p.val = r.val; rw [e0, hr]; omega
  | ⟨1, _⟩ => show win0_0.index t (1 : Fin 2) * 128 + 1 * d.val = d.val; rw [e1]; omega

/-- Row `q` of the `b`-block at point `t` is row `256 · (column block) + q` of `b`. -/
theorem bblk_apply (c : Dev nD) (t : Fin cfg0.N) (q : Fin 256) (d : Fin 128) (s : Fin 1024)
    (hs : s.val = win0_3.index t (1 : Fin 2) * 256 + q.val) :
    (iblk m c 1 t : Vec Ideal S256x128 .f32) (ix2 q d) = argB m c (ix2 s d) := by
  obtain ⟨-, -, e2, e3, -⟩ := block_indices t
  unfold iblk
  rw [View.read_apply]
  show V m c main_arg1 _ = m (c.tc.loc main_arg1) _
  unfold V
  congr 1
  funext a
  apply Fin.ext
  match a with
  | ⟨0, _⟩ => show win0_1.index t (0 : Fin 2) * 256 + 1 * q.val = s.val; rw [e2, hs]; omega
  | ⟨1, _⟩ => show win0_1.index t (1 : Fin 2) * 128 + 1 * d.val = d.val; rw [e3]; omega

/-- The table's block at every point is the whole table. -/
theorem wblk_apply (c : Dev nD) (t : Fin cfg0.N) (k : Fin 256) (d : Fin 128) :
    (iblk m c 2 t : Vec Ideal S256x128 .f32) (ix2 k d) = argW m c (ix2 k d) := by
  obtain ⟨-, -, -, -, e4, e5⟩ := block_indices t
  unfold iblk
  rw [View.read_apply]
  show V m c main_arg2 _ = m (c.tc.loc main_arg2) _
  unfold V
  congr 1
  funext a
  apply Fin.ext
  match a with
  | ⟨0, _⟩ => show win0_2.index t (0 : Fin 2) * 256 + 1 * k.val = k.val; rw [e4]; omega
  | ⟨1, _⟩ => show win0_2.index t (1 : Fin 2) * 128 + 1 * d.val = d.val; rw [e5]; omega

/-- The body's stored value at entry `j` of the block at point `t` is `G` at the array index `i` that entry lands on. -/
theorem pay_blk (c : Dev nD) (t : Fin cfg0.N) (j : S256x256.Idx) (i : S1024x1024.Idx)
    (h0 : (i 0).val = win0_3.index t (0 : Fin 2) * 256 + (j 0).val)
    (h1 : (i 1).val = win0_3.index t (1 : Fin 2) * 256 + (j 1).val) :
    k0_pay1 (F := Ideal) (iblk m c 0 t) (iblk m c 1 t) (iblk m c 2 t) j = G (argA m c) (argB m c) (argW m c) i := by
  obtain ⟨p, q, rfl⟩ : ∃ (p q : Fin 256), j = ix2 p q := ⟨j 0, j 1, eq_ix2 j⟩
  obtain ⟨r, s, rfl⟩ : ∃ (r s : Fin 1024), i = ix2 r s := ⟨i 0, i 1, eq_ix2 i⟩
  refine (pay_at (iblk m c 0 t) (iblk m c 1 t) (iblk m c 2 t) p q).trans ?_
  show _ = ∑ k : Fin 256, kterm (proj (argA m c) (argW m c) r k) (proj (argB m c) (argW m c) s k)
  unfold proj
  refine Finset.sum_congr rfl fun k _ => ?_
  refine congrArg₂ kterm (Finset.sum_congr rfl fun d _ => ?_) (Finset.sum_congr rfl fun d _ => ?_)
  · exact congrArg₂ (· * ·) (ablk_apply m c t p d r h0) (wblk_apply m c t k d)
  · exact congrArg₂ (· * ·) (bblk_apply m c t q d s h1) (wblk_apply m c t k d)

/-- What point `t` writes back is block `t` of `G` of the argument arrays. -/
theorem flushed_eq (c : Dev nD) (t : Fin cfg0.N) :
    (dats m 0 c).flushed 3 t = ((cfg0.win 3).blk t).view.read (Elt Ideal) (G (argA m c) (argB m c) (argW m c)) := by
  rw [Value.flushed3]
  unfold out0_3
  rw [View.canon_unit_zero zero_offsets]
  simp only [View.ld_unit_zero (S := S256x128) zero_offsets]
  funext j
  show k0_pay1 (F := Ideal) (iblk m c 0 t) (iblk m c 1 t) (iblk m c 2 t) j
    = G (argA m c) (argB m c) (argW m c) (((cfg0.win 3).blk t).view.emb j)
  refine pay_blk m c t j _ ?_ ?_
  · show win0_3.index t (0 : Fin 2) * 256 + 1 * (j 0).val = _
    omega
  · show win0_3.index t (1 : Fin 2) * 256 + 1 * (j 1).val = _
    omega

/-- An index of the result is in point `t`'s block iff each coordinate is in the block's range on its axis. -/
theorem mem_blk (t : Fin cfg0.N) (i : S1024x1024.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v0).slice (win0_3.rect t)).set ↔ _
  rw [View.set_slice_whole, Rect.mem_set_unit]
  exact Iff.rfl

/-- The blocks tile the result: `(r, s)` lies in the block of the point with block index `(r / 256, s / 256)`. -/
theorem cover (i : S1024x1024.Idx) :
    ∃ t : Fin cfg0.N, (cfg0.win 3).flush t = true ∧ i ∈ ((cfg0.win 3).blk t).view.set := by
  have hi0 : (i 0).val < 1024 := (i 0).isLt
  have hi1 : (i 1).val < 1024 := (i 1).isLt
  obtain ⟨t, ht⟩ := block_onto ⟨(i 0).val / 256, by omega⟩ ⟨(i 1).val / 256, by omega⟩
  have q0 : win0_3.index t (0 : Fin 2) = (i 0).val / 256 := congrFun ht 0
  have q1 : win0_3.index t (1 : Fin 2) = (i 1).val / 256 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 256 ≤ (i 1).val ∧ (i 1).val < win0_3.index t (1 : Fin 2) * 256 + 256; omega

/-- The result array after the run. -/
theorem final (c : Dev nD) : (dats m 0 c).arrAt 3 cfg0.N = G (argA m c) (argB m c) (argW m c) :=
  (dats m 0 c).arrAt_eq_of_cover 3 (G (argA m c) (argB m c) (argW m c)) (fun t _ => flushed_eq m c t) cover

/-- The kernel's run, read: the result array at `G` of the argument arrays, the arguments unchanged. -/
theorem run : θ_run defs (onTc (τ := τ) (main (F := Ideal))) ⟨m, fun _ => 0, ρ⟩ fun r => ∀ c : Dev nD,
      r.2.mem ((c : Thread nD τ).loc main_v0) = G (argA m c) (argB m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.lean ====
/-
  Kernel against reference, over the extended reals:

      out[i, j] = ∑ k, relu(a_f[i, k]) · 𝟙[b_f[j, k] ≤ 0],     a_f = a · wᵀ,  b_f = b · wᵀ,

  for `a, b : [1024, 128]` and a feature table `w : [256, 128]`.

  The kernel computes this on a 4 × 4 grid of `[256, 256]` result blocks: at each point it projects a row block of
  `a` and a row block of `b` on the table, rectifies the first, turns the sign test of the second into a 0/1 matrix
  and contracts the two over the features.  The reference builds the three-dimensional mask `(a_f > 0) ∧ (b_f ≤ 0)`,
  multiplies it with the broadcast `a_f` and sums the feature axis.

  Both are the one function `G` (Proof/Spec.lean) of the argument arrays:
    * Proof/Spec.lean           — the summand law  x · 𝟙[x > 0 ∧ y ≤ 0] = max x 0 · 𝟙[y ≤ 0]  on the extended reals
                                  (both sides are `0` unless `x > 0`, and equal `x · 𝟙[y ≤ 0]` when it is; `x · 0 = 0 · y = 0`
                                  holds at the infinities too, so the inputs' finiteness is never used), and `G`;
    * Proof/RefValue.lean       — the reference's result read index by index is `G`;
    * Proof/KernelPayload.lean  — the kernel body's stored block entry as a double sum over its loaded blocks;
    * Proof/KernelValue.lean    — each block read as rows of the arguments, the sixteen blocks tile the result: the
                                  kernel's result array is `G`.
  The frames are the generated ones (the reference's is its run with the result dropped); the idealization rewrote
  nothing, so `preserves` is `True`.
-/
import proofs.«164270_j89567247991564_1_alg».proof.Defs
import proofs.«164270_j89567247991564_1_alg».proof.Proof.Gen.Kernel
import proofs.«164270_j89567247991564_1_alg».proof.Proof.Gen.Kernel.Skeleton
import proofs.«164270_j89567247991564_1_alg».proof.Proof.Gen.Kernel.Launch
import proofs.«164270_j89567247991564_1_alg».proof.Proof.Gen.Kernel.Points
import proofs.«164270_j89567247991564_1_alg».proof.Proof.Gen.Kernel.Frame
import proofs.«164270_j89567247991564_1_alg».proof.Proof.Gen.KernelIdeal
import proofs.«164270_j89567247991564_1_alg».proof.Proof.Gen.KernelIdeal.Skeleton
import proofs.«164270_j89567247991564_1_alg».proof.Proof.Gen.KernelIdeal.Launch
import proofs.«164270_j89567247991564_1_alg».proof.Proof.Gen.KernelIdeal.Points
import proofs.«164270_j89567247991564_1_alg».proof.Proof.Gen.KernelIdeal.Frame
import proofs.«164270_j89567247991564_1_alg».proof.Proof.Gen.ReferenceIdeal
import proofs.«164270_j89567247991564_1_alg».proof.Proof.Gen.Pre_finite_inputs
import proofs.«164270_j89567247991564_1_alg».proof.Proof.Gen.KernelIdeal.Value
import proofs.«164270_j89567247991564_1_alg».proof.Proof.Gen.ReferenceIdeal.Run
import proofs.«164270_j89567247991564_1_alg».proof.Proof.Gen.ReferenceIdeal.Read
import proofs.«164270_j89567247991564_1_alg».proof.Proof.Spec
import proofs.«164270_j89567247991564_1_alg».proof.Proof.RefValue
import proofs.«164270_j89567247991564_1_alg».proof.Proof.KernelPayload
import proofs.«164270_j89567247991564_1_alg».proof.Proof.KernelValue
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on `a`, `b` and `w` both programs end with the result array at `G a b w`. -/
theorem algebraic : Cert.algebraic_KernelIdeal_ReferenceIdeal := by
  intro m ρ m' ρ' _ hagree
  refine ⟨fun c => Cert.MaskedRelu.G (Cert.KernelIdeal.Blocks.argA m c) (Cert.KernelIdeal.Blocks.argB m c)
    (Cert.KernelIdeal.Blocks.argW m c), Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
